-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel

variable [Facts]

def fn {F : FTy → Type} [FloatOps F] (main_arg0 : FVec F S4x12x2048x64 .f32) (main_arg1 : FVec F S4x12x2048x64 .f32) (main_arg2 : FVec F S4x12x2048x64 .f32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  main_v13
-- ==== Kernel.lean ====
abbrev S4x12x2048x64 : Shape := ⟨4, ![4, 12, 2048, 64]⟩
abbrev S4x12x2048x2048 : Shape := ⟨4, ![4, 12, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x12x2048x64, .f32⟩
  | .hbm, ⟨4, _⟩ => ⟨S4x12x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 12, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x12x2048x64.size a
  hwx0_0 : ∀ i : grid0.Coords, EltTy.bits .f32 = 32 ∨ (Rect.block (s := S4x12x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x12x2048x64.size a
  hwx0_1 : ∀ i : grid0.Coords, EltTy.bits .f32 = 32 ∨ (Rect.block (s := S4x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x12x2048x64.size a
  hwx0_2 : ∀ i : grid0.Coords, EltTy.bits .f32 = 32 ∨ (Rect.block (s := S4x12x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S4x12x2048x64.size a
  hwx0_3 : ∀ i : grid0.Coords, EltTy.bits .f32 = 32 ∨ (Rect.block (s := S4x12x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S4x12x2048x2048.size a
  hwx0_4 : ∀ i : grid0.Coords, EltTy.bits .f32 = 32 ∨ (Rect.block (s := S4x12x2048x2048) S1x1x512x2048.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S_ : Shape := ⟨0, ![]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x12x2048x2048, .f32⟩
  | .hbm, ⟨8, _⟩ => ⟨S4x12x2048x2048, .f32⟩
  | .hbm, ⟨9, _⟩ => ⟨S4x12x2048x2048, .f32⟩
  | .hbm, ⟨10, _⟩ => ⟨S_, .f32⟩
  | .hbm, ⟨11, _⟩ => ⟨S4x12x2048, .f32⟩
  | .hbm, ⟨12, _⟩ => ⟨S_, .f32⟩
  | .hbm, ⟨13, _⟩ => ⟨S4x12x2048, .f32⟩
  | .hbm, ⟨14, _⟩ => ⟨S4x12x2048, .f32⟩
  | .hbm, ⟨15, _⟩ => ⟨S4x12x2048x1, .f32⟩
  | .hbm, ⟨16, _⟩ => ⟨S4x12x2048x2048, .f32⟩
  | .hbm, ⟨17, _⟩ => ⟨S4x12x2048x2048, .f32⟩
  | .hbm, ⟨18, _⟩ => ⟨S4x12x2048x2048, .f32⟩
  | .hbm, ⟨19, _⟩ => ⟨S_, .f32⟩
  | .hbm, ⟨20, _⟩ => ⟨S4x12x2048, .f32⟩
  | .hbm, ⟨21, _⟩ => ⟨S4x12x2048x1, .f32⟩
  | .hbm, ⟨22, _⟩ => ⟨S4x12x2048x2048, .f32⟩
  | .hbm, ⟨23, _⟩ => ⟨S4x12x2048x2048, .f32⟩
  | .hbm, ⟨24, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.Finite.lean ====
/-
  The precondition read back: when "every input is finite" evaluates to true, every entry of each of the three input
  arrays is a real number.

  The predicate is the conjunction of three tests "all |x| < +∞", one per array. Each test is a reduction by `and`
  over the whole array of the entrywise comparison, so a true result gives the comparison at every entry; and an
  extended real whose absolute value max(x, −x) lies below +∞ is neither infinity.
-/
import proofs.«400047_j13881334301212_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The rank-0 shape has one index. -/
instance : Subsingleton S_.Idx := ⟨fun a b => funext fun d => d.elim0⟩

/-- The word `0x7F800000` denotes +∞. -/
theorem ofBits_pos_inf : Ideal.ofBits .f32 0x7F800000#32 = ⊤ := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe r => exact ⟨r, rfl⟩
  | top => simp at hlt

/-- Where the precondition holds, every entry of every input array is a real number. -/
theorem real_entries (A B C : FVec Ideal S4x12x2048x64 .f32)
    (h : Cert.Pre_finite_inputs.fn (F := Ideal) A B C = fun _ => 1#1) :
    (∀ x, ∃ r : ℝ, A x = (r : EReal)) ∧ (∀ x, ∃ r : ℝ, B x = (r : EReal)) ∧ (∀ x, ∃ r : ℝ, C x = (r : EReal)) := by
  have h0 := congrFun h ValueIdx.ix0
  dsimp only [Cert.Pre_finite_inputs.fn] at h0
  obtain ⟨hAB, hC⟩ := IntOp.andi_eq_one.1 h0
  obtain ⟨hA, hB⟩ := IntOp.andi_eq_one.1 hAB
  refine ⟨fun x => ?_, fun x => ?_, fun x => ?_⟩
  · exact real_of_abs_lt _ (Host.reduce_andi_all _ _ _ _ _ hA x)
  · exact real_of_abs_lt _ (Host.reduce_andi_all _ _ _ _ _ hB x)
  · exact real_of_abs_lt _ (Host.reduce_andi_all _ _ _ _ _ hC x)

end Cert.Finite

end
-- ==== Proof.Softmax.lean ====
/-
  Softmax of one finite row of extended reals, and the laws that join the two ways the programs spell it.

  A row `s : Fin n → EReal` has its largest entry `rowMax s` (the fold of `max` from −∞), its shifted exponentials
  `expShift s j = exp (s j − rowMax s)`, their sum `expSum s`, and the normalised weights
  `softmax s j = expShift s j / expSum s`.

  * A row of real numbers has `rowMax s ≠ +∞`, so no shifted entry is −∞, every exponential is positive, and the
    sum over a non-empty row is positive: in particular it is not zero (`expSum_ne_zero`).
  * Off zero, dividing is multiplying by the inverse, so multiplying the numerator by the reciprocal `1 / l` is
    dividing it by `l` (`mul_one_div`, `softmax_eq_mul_recip`).
  * For real entries a real factor moves out of a sum of products:
    `∑ (q a · c) · k a = (∑ q a · k a) · c` (`dot_scale`). On the extended reals this needs the entries finite.
  * The constants: the word `0x3E000000` is 1/8, and `1 / √64` is 1/8 as well (`recip_sqrt_64`).
-/
import Idealize.ShloMosaic.PureOps.Ideal
import Idealize.ShloMosaic.PureOps.Ideal.Laws

noncomputable section

namespace Cert.Attn

open Idealize.ShloMosaic

/-! ## The constants the two programs spell -/

/-- The word `0x3E000000` denotes 1/8. -/
theorem ofBits_eighth : Ideal.ofBits .f32 0x3E000000#32 = ((1 / 8 : ℝ) : EReal) := by
  simp [Ideal.ofBits, Ideal.ieee, -EReal.coe_mul]; norm_num

/-- The word `0x3F800000` denotes 1. -/
theorem ofBits_one : Ideal.ofBits .f32 0x3F800000#32 = 1 := by
  simp [Ideal.ofBits, Ideal.ieee, -EReal.coe_mul]; norm_num

/-- The word `0x42800000` denotes 64. -/
theorem ofBits_sixty_four : Ideal.ofBits .f32 0x42800000#32 = ((64 : ℝ) : EReal) := by
  simp [Ideal.ofBits, Ideal.ieee, -EReal.coe_mul]; norm_num

/-- The word `0xFF800000` denotes −∞. -/
theorem ofBits_neg_inf : Ideal.ofBits .f32 0xFF800000#32 = ⊥ := by
  simp [Ideal.ofBits, Ideal.ieee]

theorem sqrt_sixty_four : Real.sqrt 64 = 8 := by
  rw [show (64 : ℝ) = 8 ^ 2 by norm_num]
  exact Real.sqrt_sq (by norm_num)

/-- `1 / √64 = 1/8`: 64 is a perfect square, so the reciprocal of its root is a dyadic rational. -/
theorem recip_sqrt_64 :
    Ideal.div (Ideal.ofBits .f32 0x3F800000#32) (Ideal.sqrt (Ideal.ofBits .f32 0x42800000#32)) = ((1 / 8 : ℝ) : EReal) := by
  rw [ofBits_one, ofBits_sixty_four]
  show Ideal.div 1 (if (64 : ℝ) < 0 then ⊥ else ((Real.sqrt 64 : ℝ) : EReal)) = _
  rw [if_neg (by norm_num), sqrt_sixty_four, Ideal.div_coe (by norm_num), one_mul]

/-! ## A row's maximum, shifted exponentials and their sum -/

/-- The largest entry of a row, from −∞. -/
def rowMax {n : ℕ} (s : Fin n → EReal) : EReal := (Finset.univ : Finset (Fin n)).fold max ⊥ s

/-- The exponential of an entry less the row's maximum. -/
def expShift {n : ℕ} (s : Fin n → EReal) (j : Fin n) : EReal := Ideal.exp (s j - rowMax s)

/-- The sum of a row's shifted exponentials. -/
def expSum {n : ℕ} (s : Fin n → EReal) : EReal := ∑ k : Fin n, expShift s k

/-- The normalised weight of entry `j`. -/
def softmax {n : ℕ} (s : Fin n → EReal) (j : Fin n) : EReal := Ideal.div (expShift s j) (expSum s)

/-- A row with no entry +∞ has a maximum that is not +∞. -/
theorem rowMax_ne_top {n : ℕ} (s : Fin n → EReal) (h : ∀ j, s j ≠ ⊤) : rowMax s ≠ ⊤ := by
  have hlt : rowMax s < ⊤ := by
    unfold rowMax
    rw [Finset.fold_max_lt]
    exact ⟨bot_lt_top, fun j _ => lt_top_iff_ne_top.2 (h j)⟩
  exact hlt.ne

/-- The exponential is positive away from −∞. -/
theorem exp_pos_of_ne_bot {x : EReal} (h : x ≠ ⊥) : 0 < Ideal.exp x := by
  induction x using EReal.rec with
  | bot => exact absurd rfl h
  | coe r =>
    show (0 : EReal) < ((Real.exp r : ℝ) : EReal)
    exact_mod_cast Real.exp_pos r
  | top => exact EReal.zero_lt_top

/-- A difference is −∞ only if the minuend is −∞ or the subtrahend +∞. -/
theorem sub_ne_bot {x y : EReal} (hx : x ≠ ⊥) (hy : y ≠ ⊤) : x - y ≠ ⊥ := by
  rw [sub_eq_add_neg]
  intro h
  rcases EReal.add_eq_bot_iff.1 h with h | h
  · exact hx h
  · exact hy (EReal.neg_eq_bot_iff.1 h)

/-- Over a non-empty row of finite entries the sum of the shifted exponentials is positive. -/
theorem expSum_pos {n : ℕ} (s : Fin n → EReal) (hn : 0 < n) (hb : ∀ j, s j ≠ ⊥) (ht : ∀ j, s j ≠ ⊤) : 0 < expSum s := by
  have hm := rowMax_ne_top s ht
  have h0 : ∀ j, 0 < expShift s j := fun j => exp_pos_of_ne_bot (sub_ne_bot (hb j) hm)
  calc (0 : EReal) < expShift s ⟨0, hn⟩ := h0 _
    _ ≤ expSum s := Finset.single_le_sum (f := expShift s) (fun j _ => (h0 j).le) (Finset.mem_univ _)

/-- … so it is not zero, when the entries are real numbers. -/
theorem expSum_ne_zero {n : ℕ} (s : Fin n → EReal) (hn : 0 < n) (hs : ∀ j, ∃ r : ℝ, s j = (r : EReal)) : expSum s ≠ 0 := by
  refine (expSum_pos s hn (fun j => ?_) (fun j => ?_)).ne'
  · obtain ⟨r, hr⟩ := hs j; rw [hr]; exact EReal.coe_ne_bot r
  · obtain ⟨r, hr⟩ := hs j; rw [hr]; exact EReal.coe_ne_top r

/-- Off zero, the product with the reciprocal is the quotient. -/
theorem mul_one_div {p l : EReal} (hl : l ≠ 0) : p * Ideal.div 1 l = Ideal.div p l := by
  unfold Ideal.div
  rw [if_neg hl, if_neg hl, one_mul]

/-- The normalised weight is the shifted exponential times the reciprocal of the sum. -/
theorem softmax_eq_mul_recip {n : ℕ} (s : Fin n → EReal) (hn : 0 < n) (hs : ∀ j, ∃ r : ℝ, s j = (r : EReal)) (j : Fin n) :
    expShift s j * Ideal.div 1 (expSum s) = softmax s j :=
  mul_one_div (expSum_ne_zero s hn hs)

/-! ## A real factor moves out of a sum of products of reals -/

/-- The inclusion of the reals commutes with finite sums. -/
theorem coe_sum {ι : Type*} (t : Finset ι) (f : ι → ℝ) : ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- For real entries, scaling each left factor by the real `c` scales the sum of products by `c`. -/
theorem dot_scale {d : ℕ} (q k : Fin d → EReal) (c : ℝ) (hq : ∀ a, ∃ r : ℝ, q a = (r : EReal)) (hk : ∀ a, ∃ r : ℝ, k a = (r : EReal)) :
    ∑ a : Fin d, (q a * (c : EReal)) * k a = (∑ a : Fin d, q a * k a) * (c : EReal) := by
  choose qr hqr using hq
  choose kr hkr using hk
  simp only [hqr, hkr, ← EReal.coe_mul, ← coe_sum]
  congr 1
  rw [Finset.sum_mul]
  exact Finset.sum_congr rfl fun a _ => by ring

/-- … and that scaled sum of products of reals is a real number. -/
theorem dot_scale_real {d : ℕ} (q k : Fin d → EReal) (c : ℝ) (hq : ∀ a, ∃ r : ℝ, q a = (r : EReal)) (hk : ∀ a, ∃ r : ℝ, k a = (r : EReal)) :
    ∃ r : ℝ, (∑ a : Fin d, q a * k a) * (c : EReal) = (r : EReal) := by
  choose qr hqr using hq
  choose kr hkr using hk
  refine ⟨(∑ a : Fin d, qr a * kr a) * c, ?_⟩
  simp only [hqr, hkr, ← EReal.coe_mul, ← coe_sum]

end Cert.Attn

end
-- ==== Proof.Spec.lean ====
/-
  Scaled dot-product attention over arrays [4, 12, 2048, 64], entry by entry on the extended reals.

  For batch `b`, head `h` and query position `i` the scores are the products of query row (b, h, i) with every
  key row (b, h, j), times 1/8 = 1/√64 (`scoreRow`); the attention weights are the softmax of that row (`attention`);
  the output is the weights against the value rows (`output`).

  `softmax_of_scaled` is the step between the two programs: when the query row and the key rows hold real numbers,
  scaling the query entries by 1/8 BEFORE the products gives the same scores, and the shifted exponential times the
  reciprocal of the row's sum is the softmax.
-/
import proofs.«400047_j13881334301212_3_alg».proof.Proof.Softmax
import Idealize.ShloMosaic.Lib.ValueIdx

noncomputable section

namespace Cert.Attn

open Idealize.ShloMosaic Idealize.ShloMosaic.ValueIdx

/-- An array of queries, keys or values: [batch, head, position, feature]. -/
abbrev Arr := (⟨4, ![4, 12, 2048, 64]⟩ : Shape).Idx → EReal
/-- An array of attention weights: [batch, head, query position, key position]. -/
abbrev Wts := (⟨4, ![4, 12, 2048, 2048]⟩ : Shape).Idx → EReal

/-- The scores of query (b, h, i) against every key of its head, scaled by 1/8. -/
def scoreRow (Q K : Arr) (b : Fin 4) (h : Fin 12) (i : Fin 2048) : Fin 2048 → EReal :=
  fun j => (∑ a : Fin 64, Q (ix4 b h i a) * K (ix4 b h j a)) * ((1 / 8 : ℝ) : EReal)

/-- The attention weights: each query's scores normalised by softmax. -/
def attention (Q K : Arr) : Wts := fun x => softmax (scoreRow Q K (x 0) (x 1) (x 2)) (x 3)

/-- The output: each query's weights against the values of its head. -/
def output (Q K V : Arr) : Arr :=
  fun x => ∑ j : Fin 2048, attention Q K (ix4 (x 0) (x 1) (x 2) j) * V (ix4 (x 0) (x 1) j (x 3))

/-- A row of scores computed from query entries scaled first, normalised by the reciprocal of its sum, is the
    attention weight — for a query row `q` and key rows `k j` of real numbers. -/
theorem softmax_of_scaled (Q K : Arr) (b : Fin 4) (h : Fin 12) (i : Fin 2048)
    (hQ : ∀ x, ∃ r : ℝ, Q x = (r : EReal)) (hK : ∀ x, ∃ r : ℝ, K x = (r : EReal))
    (s : Fin 2048 → EReal)
    (hs : ∀ j, s j = ∑ a : Fin 64, (Q (ix4 b h i a) * ((1 / 8 : ℝ) : EReal)) * K (ix4 b h j a)) (j : Fin 2048) :
    expShift s j * Ideal.div 1 (expSum s) = attention Q K (ix4 b h i j) := by
  have hrow : s = scoreRow Q K b h i := funext fun j => by
    rw [hs j]
    exact dot_scale (fun a => Q (ix4 b h i a)) (fun a => K (ix4 b h j a)) (1 / 8) (fun a => hQ _) (fun a => hK _)
  rw [hrow]
  exact softmax_eq_mul_recip (scoreRow Q K b h i) (by decide)
    (fun j => dot_scale_real (fun a => Q (ix4 b h i a)) (fun a => K (ix4 b h j a)) (1 / 8) (fun a => hQ _) (fun a => hK _)) j

end Cert.Attn

end
-- ==== Proof.RefAttn.lean ====
/-
  The reference program's two results are scaled dot-product attention (`Cert.Attn.attention`, `Cert.Attn.output`),
  read one operation at a time: the scale `1 / √64` is 1/8; the scaled scores; the row maximum (a fold of `max`
  from −∞, once more against −∞); the shifted exponentials; their row sum from zero; the quotient; the product with
  the values.
-/
import proofs.«400047_j13881334301212_3_alg».proof.Proof.Gen.ReferenceIdeal.Read
import proofs.«400047_j13881334301212_3_alg».proof.Proof.Spec
import Idealize.ShloMosaic.PureOps.Reduce

noncomputable section

namespace Cert.ReferenceIdeal.RefAttn

open Idealize.ShloMosaic Idealize.ShloMosaic.ValueIdx
open Cert.ReferenceIdeal Cert.ReferenceIdeal.Gen Cert.ReferenceIdeal.Read Cert.Attn

variable (Q K V : Arr)

/-- The scale the program computes, one over the root of 64, is 1/8 at every index. -/
theorem scale_eq (x : S4x12x2048x2048.Idx) : val_main_v3 (F := Ideal) x = ((1 / 8 : ℝ) : EReal) := by
  rw [val_main_v3_apply, val_main_v1_apply, val_main_cst_0_apply, val_main_v0_apply, val_main_cst_apply]
  exact recip_sqrt_64

theorem lidx_v2_eq (x : S4x12x2048x2048.Idx) (k : Fin 64) : lidx_main_v2 x k = ix4 (n0 := 4) (n1 := 12) (n2 := 2048) (n3 := 64) (x 0) (x 1) (x 2) k :=
  funext fun a => Fin.ext (by match a with | ⟨0, _⟩ => rfl | ⟨1, _⟩ => rfl | ⟨2, _⟩ => rfl | ⟨3, _⟩ => rfl)
theorem ridx_v2_eq (x : S4x12x2048x2048.Idx) (k : Fin 64) : ridx_main_v2 x k = ix4 (n0 := 4) (n1 := 12) (n2 := 2048) (n3 := 64) (x 0) (x 1) (x 3) k :=
  funext fun a => Fin.ext (by match a with | ⟨0, _⟩ => rfl | ⟨1, _⟩ => rfl | ⟨2, _⟩ => rfl | ⟨3, _⟩ => rfl)

/-- The scaled scores. -/
theorem scores_eq (x : S4x12x2048x2048.Idx) :
    val_main_v4 (F := Ideal) Q K x = scoreRow Q K (x 0) (x 1) (x 2) (x 3) := by
  rw [val_main_v4_apply, val_main_v2_apply, scale_eq]
  unfold scoreRow
  show (∑ k : Fin 64, Q (lidx_main_v2 x k) * K (ridx_main_v2 x k)) * _ = _
  simp only [lidx_v2_eq, ridx_v2_eq]

/-- Dropping the key axis of the weights' shape leaves the queries' shape. -/
theorem reduces_keys : S4x12x2048x2048.Reduces [3] S4x12x2048 := by decide

/-- A query's key position put back on the reduced axis. -/
theorem lift_key (y : S4x12x2048.Idx) (k : Fin 2048) :
    reduces_keys.lift y k = ix4 (n0 := 4) (n1 := 12) (n2 := 2048) (n3 := 2048) (y 0) (y 1) (y 2) k :=
  funext fun a => Fin.ext (by match a with | ⟨0, _⟩ => rfl | ⟨1, _⟩ => rfl | ⟨2, _⟩ => rfl | ⟨3, _⟩ => rfl)

/-- The row maximum. -/
theorem max_eq (y : S4x12x2048.Idx) :
    val_main_v7 (F := Ideal) Q K y = rowMax (scoreRow Q K (y 0) (y 1) (y 2)) := by
  rw [val_main_v7_apply, val_main_v6_apply, val_main_cst_2_apply]
  show max (Ideal.ofBits .f32 0xFF800000#32) (val_main_v5 (F := Ideal) Q K y) = _
  rw [ofBits_neg_inf, max_eq_right bot_le]
  unfold val_main_v5
  refine (Host.reduce_eq_fold_single (FloatOps.maximumf (F := Ideal) (φ := .f32)) (val_main_v4 (F := Ideal) Q K) (val_main_cst_1 (F := Ideal))
    reducesTo_S4x12x2048x2048_S4x12x2048_d3 reduces_keys h_S_ y).trans ?_
  unfold rowMax
  have hrow : (val_main_v4 (F := Ideal) Q K ∘ reduces_keys.lift y) = scoreRow Q K (y 0) (y 1) (y 2) := funext fun k =>
    (congrArg (val_main_v4 (F := Ideal) Q K) (lift_key y k)).trans (scores_eq Q K _)
  rw [hrow]
  show Finset.univ.fold max (Ideal.ofBits .f32 0xFF800000#32) _ = _
  rw [ofBits_neg_inf]
  rfl

/-- The shifted exponentials. -/
theorem exp_eq (x : S4x12x2048x2048.Idx) :
    val_main_v11 (F := Ideal) Q K x = expShift (scoreRow Q K (x 0) (x 1) (x 2)) (x 3) := by
  rw [val_main_v11_apply, val_main_v10_apply, val_main_v9_apply, val_main_v8_apply, max_eq, scores_eq]
  rfl

theorem idx_v12_eq (y : S4x12x2048.Idx) (k : Fin 2048) : idx_main_v12 y k = ix4 (n0 := 4) (n1 := 12) (n2 := 2048) (n3 := 2048) (y 0) (y 1) (y 2) k :=
  funext fun a => Fin.ext (by match a with | ⟨0, _⟩ => rfl | ⟨1, _⟩ => rfl | ⟨2, _⟩ => rfl | ⟨3, _⟩ => rfl)

/-- The row sum, from zero. -/
theorem sum_eq (y : S4x12x2048.Idx) :
    val_main_v12 (F := Ideal) Q K y = expSum (scoreRow Q K (y 0) (y 1) (y 2)) := by
  rw [val_main_v12_apply, val_main_cst_3_apply]
  show Ideal.ofBits .f32 0x00000000#32 + _ = _
  rw [Ideal.ofBits_zero_f32, zero_add]
  unfold expSum
  exact Finset.sum_congr rfl fun k _ => by rw [idx_v12_eq, exp_eq]

/-- THE SECOND RESULT of the reference is the attention weights. -/
theorem attention_eq : val_main_v15 (F := Ideal) Q K = attention Q K := by
  funext x
  rw [val_main_v15_apply, val_main_v14_apply, val_main_v13_apply, sum_eq, exp_eq]
  rfl

theorem lidx_v16_eq (x : S4x12x2048x64.Idx) (k : Fin 2048) : lidx_main_v16 x k = ix4 (n0 := 4) (n1 := 12) (n2 := 2048) (n3 := 2048) (x 0) (x 1) (x 2) k :=
  funext fun a => Fin.ext (by match a with | ⟨0, _⟩ => rfl | ⟨1, _⟩ => rfl | ⟨2, _⟩ => rfl | ⟨3, _⟩ => rfl)
theorem ridx_v16_eq (x : S4x12x2048x64.Idx) (k : Fin 2048) : ridx_main_v16 x k = ix4 (n0 := 4) (n1 := 12) (n2 := 2048) (n3 := 64) (x 0) (x 1) k (x 3) :=
  funext fun a => Fin.ext (by match a with | ⟨0, _⟩ => rfl | ⟨1, _⟩ => rfl | ⟨2, _⟩ => rfl | ⟨3, _⟩ => rfl)

/-- THE FIRST RESULT of the reference is the output. -/
theorem output_eq : val_main_v16 (F := Ideal) Q K V = output Q K V := by
  funext x
  rw [val_main_v16_apply, attention_eq]
  unfold output
  exact Finset.sum_congr rfl fun k _ => by rw [lidx_v16_eq, ridx_v16_eq]

end Cert.ReferenceIdeal.RefAttn

end
-- ==== Proof.KernelBlock.lean ====
/-
  What one grid point of the kernel computes from its three blocks, read entry by entry at the extended reals.

  The body's value is cut into stages, each a function of whole vectors: the query block scaled by 1/8
  (`scaledQuery`), the key block transposed (`keyT`), their product (`scores`), a score matrix's row maxima
  spread back over the rows (`rowMaxSpread`), the shifted exponentials (`weights`), the reciprocals of a
  matrix's row sums spread back over the rows (`rowRecipSpread`), the normalised weights (`attnBlock`) and
  their product with the value block (`outBlock`).
-/
import proofs.«400047_j13881334301212_3_alg».proof.Proof.Gen.KernelIdeal.Skeleton
import proofs.«400047_j13881334301212_3_alg».proof.Proof.Softmax
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx
open Cert.KernelIdeal Cert.KernelIdeal.Gen Cert.Attn

/-! ## The stages -/

/-- The query block as a matrix, every entry times the constant the body spells (1/8). -/
def scaledQuery (v0 : Vec Ideal S1x1x512x64 .f32) : FVec Ideal S512x64 .bf16 :=
  truncf .bf16 (mulf (shapeCast S512x64 v0 shapeCasts_S1x1x512x64_S512x64) (broadcast S512x64 (Scalar.ofBits .f32 0x3E000000#32))) bitsLt_bf16_f32

/-- The key block as a matrix, transposed. -/
def keyT (v5 : Vec Ideal S1x1x2048x64 .f32) : FVec Ideal S64x2048 .bf16 :=
  transpose S64x2048 [1, 0] (truncf .bf16 (shapeCast S2048x64 v5 shapeCasts_S1x1x2048x64_S2048x64) bitsLt_bf16_f32) transposes_S2048x64_p1_0_S64x2048

/-- The scores: scaled queries against keys. -/
def scores (v0 : Vec Ideal S1x1x512x64 .f32) (v5 : Vec Ideal S1x1x2048x64 .f32) : FVec Ideal S512x2048 .f32 :=
  matmul dot_S512x64_S64x2048_S512x2048_1_0_0_1_n_n none (scaledQuery v0) (keyT v5) (constant S512x2048 .f32 0x00000000#32)

/-- A matrix's row maxima, each spread over its row. -/
def rowMaxSpread (x : FVec Ideal S512x2048 .f32) : FVec Ideal S512x2048 .f32 :=
  broadcastTo S512x2048 (shapeCast S512x1 (multiReduction .maximumf [1] S512 x 0xFF800000#32 reduces_S512x2048_S512 (.inl rfl) rfl) shapeCasts_S512_S512x1) broadcasts_S512x1_S512x2048

/-- The exponentials of the scores less their row maxima. -/
def weights (v0 : Vec Ideal S1x1x512x64 .f32) (v5 : Vec Ideal S1x1x2048x64 .f32) : FVec Ideal S512x2048 .f32 :=
  exp (subf (scores v0 v5) (rowMaxSpread (scores v0 v5)))

/-- The reciprocals of a matrix's row sums, each spread over its row. -/
def rowRecipSpread (y : FVec Ideal S512x2048 .f32) : FVec Ideal S512x2048 .f32 :=
  broadcastTo S512x2048 (divf (broadcast S512x1 (Scalar.ofBits .f32 0x3F800000#32)) (shapeCast S512x1 (multiReduction .add [1] S512 y 0x00000000#32 reduces_S512x2048_S512 (.inl rfl) rfl) shapeCasts_S512_S512x1)) broadcasts_S512x1_S512x2048

/-- The normalised weights of the block. -/
def attnBlock (v0 : Vec Ideal S1x1x512x64 .f32) (v5 : Vec Ideal S1x1x2048x64 .f32) : FVec Ideal S512x2048 .f32 :=
  mulf (weights v0 v5) (rowRecipSpread (weights v0 v5))

/-- The body's first stored value is the normalised weights. -/
theorem pay2_eq (v0 : Vec Ideal S1x1x512x64 .f32) (v5 : Vec Ideal S1x1x2048x64 .f32) : k0_pay2 v0 v5 = attnBlock v0 v5 := rfl

/-- The value block as a matrix. -/
def valueMat (v8 : Vec Ideal S1x1x2048x64 .f32) : FVec Ideal S2048x64 .bf16 :=
  truncf .bf16 (shapeCast S2048x64 v8 shapeCasts_S1x1x2048x64_S2048x64) bitsLt_bf16_f32

/-- The product of a weight matrix with the value block. -/
def outBlock (A : FVec Ideal S512x2048 .f32) (v8 : Vec Ideal S1x1x2048x64 .f32) : FVec Ideal S512x64 .f32 :=
  matmul dot_S512x2048_S2048x64_S512x64_1_0_0_1_n_n none (truncf .bf16 A bitsLt_bf16_f32) (valueMat v8) (constant S512x64 .f32 0x00000000#32)

/-- The body's second stored value is the normalised weights times the value block. -/
theorem pay4_eq (v0 : Vec Ideal S1x1x512x64 .f32) (v5 v8 : Vec Ideal S1x1x2048x64 .f32) : k0_pay4 v0 v5 v8 = outBlock (k0_pay2 v0 v5) v8 := rfl

/-! ## The layout stages at an index -/

/-- Entry (p, a) of the scaled query matrix is entry (0, 0, p, a) of the block times 1/8. -/
theorem scaledQuery_apply (v0 : Vec Ideal S1x1x512x64 .f32) (p : Fin 512) (a : Fin 64) :
    scaledQuery v0 (ix2 p a) = v0 (ix4 0 0 p a) * ((1 / 8 : ℝ) : EReal) := by
  unfold scaledQuery
  rw [truncf_apply, mulf_apply, broadcast_apply,
    shapeCast_apply v0 shapeCasts_S1x1x512x64_S512x64 (ix2 p a) (ix4 0 0 p a) (by
      rw [Shape.rowMajor_val_four, Shape.rowMajor_val_two]
      show ((0 * 1 + 0) * 512 + p.val) * 64 + a.val = p.val * 64 + a.val
      omega)]
  show _ * Ideal.ofBits .f32 0x3E000000#32 = _
  rw [ofBits_eighth]

/-- Entry (a, j) of the transposed key matrix is entry (0, 0, j, a) of the block. -/
theorem keyT_apply (v5 : Vec Ideal S1x1x2048x64 .f32) (a : Fin 64) (j : Fin 2048) :
    keyT v5 (ix2 a j) = v5 (ix4 0 0 j a) := by
  unfold keyT
  rw [transpose_apply [1, 0] _ transposes_S2048x64_p1_0_S64x2048 (ix2 a j) (ix2 j a)
      (fun b => match b with | ⟨0, _⟩ => rfl | ⟨1, _⟩ => rfl),
    truncf_apply,
    shapeCast_apply v5 shapeCasts_S1x1x2048x64_S2048x64 (ix2 j a) (ix4 0 0 j a) (by
      rw [Shape.rowMajor_val_four, Shape.rowMajor_val_two]
      show ((0 * 1 + 0) * 2048 + j.val) * 64 + a.val = j.val * 64 + a.val
      omega)]

/-- Entry (j, e) of the value matrix is entry (0, 0, j, e) of the block. -/
theorem valueMat_apply (v8 : Vec Ideal S1x1x2048x64 .f32) (j : Fin 2048) (e : Fin 64) :
    valueMat v8 (ix2 j e) = v8 (ix4 0 0 j e) := by
  unfold valueMat
  rw [truncf_apply,
    shapeCast_apply v8 shapeCasts_S1x1x2048x64_S2048x64 (ix2 j e) (ix4 0 0 j e) (by
      rw [Shape.rowMajor_val_four, Shape.rowMajor_val_two]
      show ((0 * 1 + 0) * 2048 + j.val) * 64 + e.val = j.val * 64 + e.val
      omega)]

/-! ## The two matrix products at an index

Each has one contracted axis, so an entry is a sum over that axis's coordinate. The operand indices of the product at
an output index and a contraction coordinate are read axis by axis. -/

theorem qk_lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Entry (p, j) of a [512, 64] × [64, 2048] product into zero is the sum over the 64 shared coordinates. -/
theorem matmul_qk_apply (lhs : FVec Ideal S512x64 .bf16) (rhs : FVec Ideal S64x2048 .bf16) (p : Fin 512) (j : Fin 2048) :
    matmul dot_S512x64_S64x2048_S512x2048_1_0_0_1_n_n none lhs rhs (constant S512x2048 .f32 0x00000000#32) (ix2 p j)
      = ∑ a : Fin 64, lhs (ix2 p a) * rhs (ix2 a j) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p j) ((contrEquiv1 dot_S512x64_S64x2048_S512x2048_1_0_0_1_n_n 64 rfl rfl).symm k) = ix2 p k := funext fun a => Fin.ext (by
    match a with
    | ⟨0, _⟩ => exact qk_lhs_0 _ _
    | ⟨1, _⟩ => exact (qk_lhs_1 _ _).trans hk)
  have er : dot_S512x64_S64x2048_S512x2048_1_0_0_1_n_n.rhsIdx (ix2 p j) ((contrEquiv1 dot_S512x64_S64x2048_S512x2048_1_0_0_1_n_n 64 rfl rfl).symm k) = ix2 k j := funext fun a => Fin.ext (by
    match a with
    | ⟨0, _⟩ => exact (qk_rhs_0 _ _).trans hk
    | ⟨1, _⟩ => exact qk_rhs_1 _ _)
  rw [el, er]

theorem av_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem av_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem av_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem av_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry (p, e) of a [512, 2048] × [2048, 64] product into zero is the sum over the 2048 shared coordinates. -/
theorem matmul_av_apply (lhs : FVec Ideal S512x2048 .bf16) (rhs : FVec Ideal S2048x64 .bf16) (p : Fin 512) (e : Fin 64) :
    matmul dot_S512x2048_S2048x64_S512x64_1_0_0_1_n_n none lhs rhs (constant S512x64 .f32 0x00000000#32) (ix2 p e)
      = ∑ j : Fin 2048, lhs (ix2 p j) * rhs (ix2 j e) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p e) ((contrEquiv1 dot_S512x2048_S2048x64_S512x64_1_0_0_1_n_n 2048 rfl rfl).symm k) = ix2 p k := funext fun a => Fin.ext (by
    match a with
    | ⟨0, _⟩ => exact av_lhs_0 _ _
    | ⟨1, _⟩ => exact (av_lhs_1 _ _).trans hk)
  have er : dot_S512x2048_S2048x64_S512x64_1_0_0_1_n_n.rhsIdx (ix2 p e) ((contrEquiv1 dot_S512x2048_S2048x64_S512x64_1_0_0_1_n_n 2048 rfl rfl).symm k) = ix2 k e := funext fun a => Fin.ext (by
    match a with
    | ⟨0, _⟩ => exact (av_rhs_0 _ _).trans hk
    | ⟨1, _⟩ => exact av_rhs_1 _ _)
  rw [el, er]

/-! ## A matrix's rows reduced and spread back -/

/-- Row `p` with column `k` put back on the reduced axis is the matrix index (p, k). -/
theorem lift_row (p : Fin 512) (k : Fin 2048) : reduces_S512x2048_S512.lift (ix1 p) k = ix2 p k :=
  funext fun c => Fin.ext (by match c with | ⟨0, _⟩ => rfl | ⟨1, _⟩ => rfl)

/-- A column vector spread over 2048 columns, read at (p, j), is its entry p. -/
theorem spread_apply (w : FVec Ideal S512 .f32) (p : Fin 512) (j : Fin 2048) :
    broadcastTo S512x2048 (shapeCast S512x1 w shapeCasts_S512_S512x1) broadcasts_S512x1_S512x2048 (ix2 p j) = w (ix1 p) := by
  rw [broadcastTo_apply _ broadcasts_S512x1_S512x2048 (ix2 p j) (ix2 p 0) (fun a => match a with
      | ⟨0, _⟩ => by show p.val = if (512 : Nat) = 1 then 0 else p.val; rw [if_neg (by decide)]
      | ⟨1, _⟩ => by show (0 : Nat) = if (1 : Nat) = 1 then 0 else j.val; rw [if_pos rfl]),
    shapeCast_apply w shapeCasts_S512_S512x1 (ix2 p 0) (ix1 p) (by
      rw [Shape.rowMajor_val_one, Shape.rowMajor_val_two]
      show p.val = p.val * 1 + 0
      omega)]

/-- The maximum over the columns, from −∞, at row p is the maximum of row p. -/
theorem rowMax_reduce (x : FVec Ideal S512x2048 .f32) (hφ : FKind.Formats .f32)
    (hacc : (0xFF800000#32 : BitVec 32) = 0xFF800000#32) (p : Fin 512) :
    multiReduction .maximumf [1] S512 x 0xFF800000#32 reduces_S512x2048_S512 hφ hacc (ix1 p)
      = rowMax (fun k : Fin 2048 => x (ix2 p k)) := by
  refine (Ideal.multiReduction_maximumf_single x 0xFF800000#32 reduces_S512x2048_S512 hφ hacc (ix1 p)).trans ?_
  unfold rowMax
  rw [Ideal.ofBits_def, ofBits_neg_inf]
  have hrow : (x ∘ reduces_S512x2048_S512.lift (ix1 p)) = fun k : Fin 2048 => x (ix2 p k) :=
    funext fun k => congrArg x (lift_row p k)
  rw [hrow]
  rfl

/-- The sum over the columns, from zero, at row p is the sum of row p. -/
theorem rowSum_reduce (y : FVec Ideal S512x2048 .f32) (hφ : FKind.Formats .f32)
    (hacc : (0x00000000#32 : BitVec 32) = 0x00000000#32) (p : Fin 512) :
    multiReduction .add [1] S512 y 0x00000000#32 reduces_S512x2048_S512 hφ hacc (ix1 p)
      = ∑ k : Fin 2048, y (ix2 p k) := by
  refine (Ideal.multiReduction_add_single y 0x00000000#32 reduces_S512x2048_S512 hφ hacc (ix1 p)).trans ?_
  exact Finset.sum_congr rfl fun k _ => congrArg y (lift_row p k)

/-- The spread row maximum at (p, j) is the maximum of row p. -/
theorem rowMaxSpread_apply (x : FVec Ideal S512x2048 .f32) (p : Fin 512) (j : Fin 2048) :
    rowMaxSpread x (ix2 p j) = rowMax (fun k : Fin 2048 => x (ix2 p k)) := by
  unfold rowMaxSpread
  rw [spread_apply]
  exact rowMax_reduce x _ _ p

/-- The spread reciprocal row sum at (p, j) is one over the sum of row p. -/
theorem rowRecipSpread_apply (y : FVec Ideal S512x2048 .f32) (p : Fin 512) (j : Fin 2048) :
    rowRecipSpread y (ix2 p j) = Ideal.div 1 (∑ k : Fin 2048, y (ix2 p k)) := by
  unfold rowRecipSpread
  have hcol : ∀ w : FVec Ideal S512x1 .f32,
      broadcastTo S512x2048 w broadcasts_S512x1_S512x2048 (ix2 p j) = w (ix2 p 0) := fun w =>
    broadcastTo_apply w broadcasts_S512x1_S512x2048 (ix2 p j) (ix2 p 0) (fun a => match a with
      | ⟨0, _⟩ => by show p.val = if (512 : Nat) = 1 then 0 else p.val; rw [if_neg (by decide)]
      | ⟨1, _⟩ => by show (0 : Nat) = if (1 : Nat) = 1 then 0 else j.val; rw [if_pos rfl])
  rw [hcol, divf_apply, broadcast_apply,
    shapeCast_apply _ shapeCasts_S512_S512x1 (ix2 p 0) (ix1 p) (by
      rw [Shape.rowMajor_val_one, Shape.rowMajor_val_two]
      show p.val = p.val * 1 + 0
      omega)]
  show Ideal.div (Ideal.ofBits .f32 0x3F800000#32) _ = _
  rw [ofBits_one]
  exact congrArg (Ideal.div 1) (rowSum_reduce y _ _ p)

/-! ## The block's two results at an index -/

/-- Row `p` of the block's scores: scaled query row `p` against every key row. -/
def blockScores (v0 : Vec Ideal S1x1x512x64 .f32) (v5 : Vec Ideal S1x1x2048x64 .f32) (p : Fin 512) : Fin 2048 → EReal :=
  fun k => ∑ a : Fin 64, (v0 (ix4 0 0 p a) * ((1 / 8 : ℝ) : EReal)) * v5 (ix4 0 0 k a)

theorem scores_apply (v0 : Vec Ideal S1x1x512x64 .f32) (v5 : Vec Ideal S1x1x2048x64 .f32) (p : Fin 512) (k : Fin 2048) :
    scores v0 v5 (ix2 p k) = blockScores v0 v5 p k := by
  unfold scores blockScores
  rw [matmul_qk_apply]
  exact Finset.sum_congr rfl fun a _ => by rw [scaledQuery_apply, keyT_apply]

theorem weights_apply (v0 : Vec Ideal S1x1x512x64 .f32) (v5 : Vec Ideal S1x1x2048x64 .f32) (p : Fin 512) (j : Fin 2048) :
    weights v0 v5 (ix2 p j) = expShift (blockScores v0 v5 p) j := by
  unfold weights
  show Ideal.exp (scores v0 v5 (ix2 p j) - rowMaxSpread (scores v0 v5) (ix2 p j)) = _
  rw [rowMaxSpread_apply]
  have hrow : (fun k : Fin 2048 => scores v0 v5 (ix2 p k)) = blockScores v0 v5 p := funext fun k => scores_apply v0 v5 p k
  rw [hrow, scores_apply]
  rfl

/-- THE FIRST RESULT at (p, j): the shifted exponential of score (p, j) times the reciprocal of row p's sum of them. -/
theorem attn_apply (v0 : Vec Ideal S1x1x512x64 .f32) (v5 : Vec Ideal S1x1x2048x64 .f32) (p : Fin 512) (j : Fin 2048) :
    k0_pay2 v0 v5 (ix2 p j) = expShift (blockScores v0 v5 p) j * Ideal.div 1 (expSum (blockScores v0 v5 p)) := by
  rw [pay2_eq]
  unfold attnBlock
  rw [mulf_apply, rowRecipSpread_apply, weights_apply]
  unfold expSum
  exact congrArg (fun z => expShift (blockScores v0 v5 p) j * Ideal.div 1 z)
    (Finset.sum_congr rfl fun k _ => weights_apply v0 v5 p k)

/-- THE SECOND RESULT at (p, e): the weights of row p against column e of the value block. -/
theorem out_apply (v0 : Vec Ideal S1x1x512x64 .f32) (v5 v8 : Vec Ideal S1x1x2048x64 .f32) (p : Fin 512) (e : Fin 64) :
    k0_pay4 v0 v5 v8 (ix2 p e) = ∑ j : Fin 2048, k0_pay2 v0 v5 (ix2 p j) * v8 (ix4 0 0 j e) := by
  rw [pay4_eq]
  unfold outBlock
  rw [matmul_av_apply]
  exact Finset.sum_congr rfl fun j _ => by rw [truncf_apply, valueMat_apply]

end Cert.KernelIdeal.Block

end
-- ==== Proof.KernelPoint.lean ====
/-
  One grid point of the kernel computes a tile of scaled dot-product attention.

  Stated over arbitrary blocks: if row `p` of the query block is query row (b, h, i) of `Q`, the key block is head
  (b, h) of `K` and the value block is head (b, h) of `V`, and `Q`, `K` hold real numbers, then the body's first
  result at (p, j) is the attention weight (b, h, i, j) and its second at (p, e) is the output entry (b, h, i, e).
  The reals are needed twice: to move the factor 1/8 out of the products' sum, and to know the row's sum of
  exponentials is not zero, so that multiplying by its reciprocal is dividing by it.
-/
import proofs.«400047_j13881334301212_3_alg».proof.Proof.KernelBlock
import proofs.«400047_j13881334301212_3_alg».proof.Proof.Spec

noncomputable section

namespace Cert.KernelIdeal.Point

open Idealize.ShloMosaic Idealize.ShloMosaic.ValueIdx
open Cert.KernelIdeal Cert.KernelIdeal.Gen Cert.KernelIdeal.Block Cert.Attn

/-- The first result of a point is a tile of the attention weights. -/
theorem attn_point (P0 : Vec Ideal S1x1x512x64 .f32) (P1 : Vec Ideal S1x1x2048x64 .f32) (Q K : Arr)
    (hQ : ∀ x, ∃ r : ℝ, Q x = (r : EReal)) (hK : ∀ x, ∃ r : ℝ, K x = (r : EReal))
    (p : Fin 512) (b : Fin 4) (h : Fin 12) (i : Fin 2048)
    (hP0 : ∀ a : Fin 64, P0 (ix4 0 0 p a) = Q (ix4 b h i a))
    (hP1 : ∀ (k : Fin 2048) (a : Fin 64), P1 (ix4 0 0 k a) = K (ix4 b h k a)) (j : Fin 2048) :
    k0_pay2 P0 P1 (ix2 p j) = attention Q K (ix4 b h i j) := by
  rw [attn_apply]
  refine softmax_of_scaled Q K b h i hQ hK (blockScores P0 P1 p) (fun k => ?_) j
  unfold blockScores
  exact Finset.sum_congr rfl fun a _ => by rw [hP0, hP1]

/-- The second result of a point is a tile of the output. -/
theorem out_point (P0 : Vec Ideal S1x1x512x64 .f32) (P1 P2 : Vec Ideal S1x1x2048x64 .f32) (Q K V : Arr)
    (hQ : ∀ x, ∃ r : ℝ, Q x = (r : EReal)) (hK : ∀ x, ∃ r : ℝ, K x = (r : EReal))
    (p : Fin 512) (b : Fin 4) (h : Fin 12) (i : Fin 2048)
    (hP0 : ∀ a : Fin 64, P0 (ix4 0 0 p a) = Q (ix4 b h i a))
    (hP1 : ∀ (k : Fin 2048) (a : Fin 64), P1 (ix4 0 0 k a) = K (ix4 b h k a))
    (hP2 : ∀ (k : Fin 2048) (e : Fin 64), P2 (ix4 0 0 k e) = V (ix4 b h k e)) (e : Fin 64) :
    k0_pay4 P0 P1 P2 (ix2 p e) = output Q K V (ix4 b h i e) := by
  rw [out_apply]
  show _ = ∑ j : Fin 2048, attention Q K (ix4 b h i j) * V (ix4 b h j e)
  exact Finset.sum_congr rfl fun j _ => by rw [attn_point P0 P1 Q K hQ hK p b h i hP0 hP1 j, hP2]

end Cert.KernelIdeal.Point

end
-- ==== Proof.KernelArrays.lean ====
/-
  From the tiles to the arrays: after the kernel's run its two result arrays are scaled dot-product attention of the
  argument arrays, where the queries and keys hold real numbers.

  Grid point `t` = (b, h, q) stages query rows 512·q … 512·q + 511 of head (b, h), and ALL key and value rows of that
  head; it writes rows 512·q … of head (b, h) of both results. So (the index maps decided over the 192 points):
  row `p` of the query block is query row (b, h, 512·q + p); the key and value blocks are head (b, h); the tile a point
  writes back is that tile of `attention` / `output` (`KernelPoint`); and the tiles cover the arrays, the point covering
  row `i` of head (b, h) being (b, h, i / 512).
-/
import proofs.«400047_j13881334301212_3_alg».proof.Proof.Gen.KernelIdeal.Value
import proofs.«400047_j13881334301212_3_alg».proof.Proof.KernelPoint
import Idealize.ShloMosaic.Lib.Pipeline.Value

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Point Cert.Attn

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The arrays and the blocks, at their literal types -/

abbrev Qarr (c : Dev nD) : Arr := V m c main_arg0
abbrev Karr (c : Dev nD) : Arr := V m c main_arg1
abbrev Varr (c : Dev nD) : Arr := V m c main_arg2
abbrev qblk (c : Dev nD) (t : Fin cfg0.N) : Vec Ideal S1x1x512x64 .f32 := iblk m c 0 t
abbrev kblk (c : Dev nD) (t : Fin cfg0.N) : Vec Ideal S1x1x2048x64 .f32 := iblk m c 1 t
abbrev vblk (c : Dev nD) (t : Fin cfg0.N) : Vec Ideal S1x1x2048x64 .f32 := iblk m c 2 t

/-! ## The index maps over the grid -/

/-- The weights' block indices: batch, head and query tile in range, column block 0. -/
theorem idx4 : ∀ t : Fin cfg0.N, win0_4.index t (0 : Fin 4) < 4 ∧ win0_4.index t (1 : Fin 4) < 12
    ∧ win0_4.index t (2 : Fin 4) < 4 ∧ win0_4.index t (3 : Fin 4) = 0 :=
  (by decide +kernel : ∀ t : Fin grid0.N, _)
/-- The query block moves with the weights' block. -/
theorem idx0 : ∀ t : Fin cfg0.N, win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0 :=
  (by decide +kernel : ∀ t : Fin grid0.N, _)
/-- The key block is the whole head. -/
theorem idx1 : ∀ t : Fin cfg0.N, win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0 :=
  (by decide +kernel : ∀ t : Fin grid0.N, _)
/-- The value block is the whole head. -/
theorem idx2 : ∀ t : Fin cfg0.N, win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0 :=
  (by decide +kernel : ∀ t : Fin grid0.N, _)
/-- The output block moves with the weights' block. -/
theorem idx3 : ∀ t : Fin cfg0.N, win0_3.index t (0 : Fin 4) = win0_4.index t (0 : Fin 4) ∧ win0_3.index t (1 : Fin 4) = win0_4.index t (1 : Fin 4)
    ∧ win0_3.index t (2 : Fin 4) = win0_4.index t (2 : Fin 4) ∧ win0_3.index t (3 : Fin 4) = 0 :=
  (by decide +kernel : ∀ t : Fin grid0.N, _)
/-- Every (batch, head, query tile) is some point's. -/
theorem idx_onto : ∀ (q0 : Fin 4) (q1 : Fin 12) (q2 : Fin 4), ∃ t : Fin cfg0.N, win0_4.index t = ![q0.val, q1.val, q2.val, 0] :=
  (by decide +kernel : ∀ (q0 : Fin 4) (q1 : Fin 12) (q2 : Fin 4), ∃ t : Fin grid0.N, win0_4.index t = ![q0.val, q1.val, q2.val, 0])

/-- A point's batch, -/
def ptB (t : Fin cfg0.N) : Fin 4 := ⟨win0_4.index t (0 : Fin 4), (idx4 t).1⟩
/-- its head, -/
def ptH (t : Fin cfg0.N) : Fin 12 := ⟨win0_4.index t (1 : Fin 4), (idx4 t).2.1⟩
/-- and the query position of row `p` of its tile. -/
def ptRow (t : Fin cfg0.N) (p : Fin 512) : Fin 2048 :=
  ⟨win0_4.index t (2 : Fin 4) * 512 + p.val, by have := (idx4 t).2.2.1; have := p.isLt; omega⟩

/-! ## The blocks are rows of the arrays -/

theorem qblk_row (c : Dev nD) (t : Fin cfg0.N) (p : Fin 512) (a : Fin 64) :
    qblk m c t (ix4 0 0 p a) = Qarr m c (ix4 (ptB t) (ptH t) (ptRow t p) a) := by
  obtain ⟨e0, e1, e2, e3⟩ := idx0 t
  show Qarr m c (((cfg0.win 0).blk t).view.emb (ix4 0 0 p a)) = _
  refine congrArg (Qarr m c) (funext fun d => Fin.ext ?_)
  match d with
  | ⟨0, _⟩ => show win0_0.index t (0 : Fin 4) * 1 + 1 * 0 = win0_4.index t (0 : Fin 4); omega
  | ⟨1, _⟩ => show win0_0.index t (1 : Fin 4) * 1 + 1 * 0 = win0_4.index t (1 : Fin 4); omega
  | ⟨2, _⟩ => show win0_0.index t (2 : Fin 4) * 512 + 1 * p.val = win0_4.index t (2 : Fin 4) * 512 + p.val; omega
  | ⟨3, _⟩ => show win0_0.index t (3 : Fin 4) * 64 + 1 * a.val = a.val; omega

theorem kblk_row (c : Dev nD) (t : Fin cfg0.N) (k : Fin 2048) (a : Fin 64) :
    kblk m c t (ix4 0 0 k a) = Karr m c (ix4 (ptB t) (ptH t) k a) := by
  obtain ⟨e0, e1, e2, e3⟩ := idx1 t
  show Karr m c (((cfg0.win 1).blk t).view.emb (ix4 0 0 k a)) = _
  refine congrArg (Karr m c) (funext fun d => Fin.ext ?_)
  match d with
  | ⟨0, _⟩ => show win0_1.index t (0 : Fin 4) * 1 + 1 * 0 = win0_4.index t (0 : Fin 4); omega
  | ⟨1, _⟩ => show win0_1.index t (1 : Fin 4) * 1 + 1 * 0 = win0_4.index t (1 : Fin 4); omega
  | ⟨2, _⟩ => show win0_1.index t (2 : Fin 4) * 2048 + 1 * k.val = k.val; omega
  | ⟨3, _⟩ => show win0_1.index t (3 : Fin 4) * 64 + 1 * a.val = a.val; omega

theorem vblk_row (c : Dev nD) (t : Fin cfg0.N) (k : Fin 2048) (e : Fin 64) :
    vblk m c t (ix4 0 0 k e) = Varr m c (ix4 (ptB t) (ptH t) k e) := by
  obtain ⟨e0, e1, e2, e3⟩ := idx2 t
  show Varr m c (((cfg0.win 2).blk t).view.emb (ix4 0 0 k e)) = _
  refine congrArg (Varr m c) (funext fun d => Fin.ext ?_)
  match d with
  | ⟨0, _⟩ => show win0_2.index t (0 : Fin 4) * 1 + 1 * 0 = win0_4.index t (0 : Fin 4); omega
  | ⟨1, _⟩ => show win0_2.index t (1 : Fin 4) * 1 + 1 * 0 = win0_4.index t (1 : Fin 4); omega
  | ⟨2, _⟩ => show win0_2.index t (2 : Fin 4) * 2048 + 1 * k.val = k.val; omega
  | ⟨3, _⟩ => show win0_2.index t (3 : Fin 4) * 64 + 1 * e.val = e.val; omega

/-- Entry `y` of the weights' tile at point `t` sits at (batch, head, row, column) of the array. -/
theorem emb4 (t : Fin cfg0.N) (y : S1x1x512x2048.Idx) :
    ((cfg0.win 4).blk t).view.emb y = ix4 (n0 := 4) (n1 := 12) (n2 := 2048) (n3 := 2048) (ptB t) (ptH t) (ptRow t (y 2)) (y 3) := by
  obtain ⟨b0, b1, b2, b3⟩ := idx4 t
  have hy0 : (y 0).val < 1 := (y 0).isLt
  have hy1 : (y 1).val < 1 := (y 1).isLt
  refine funext fun d => Fin.ext ?_
  match d with
  | ⟨0, _⟩ => show win0_4.index t (0 : Fin 4) * 1 + 1 * (y 0).val = win0_4.index t (0 : Fin 4); omega
  | ⟨1, _⟩ => show win0_4.index t (1 : Fin 4) * 1 + 1 * (y 1).val = win0_4.index t (1 : Fin 4); omega
  | ⟨2, _⟩ => show win0_4.index t (2 : Fin 4) * 512 + 1 * (y 2).val = win0_4.index t (2 : Fin 4) * 512 + (y 2).val; omega
  | ⟨3, _⟩ => show win0_4.index t (3 : Fin 4) * 2048 + 1 * (y 3).val = (y 3).val; omega

/-- Entry `y` of the output's tile at point `t` sits at (batch, head, row, feature) of the array. -/
theorem emb3 (t : Fin cfg0.N) (y : S1x1x512x64.Idx) :
    ((cfg0.win 3).blk t).view.emb y = ix4 (n0 := 4) (n1 := 12) (n2 := 2048) (n3 := 64) (ptB t) (ptH t) (ptRow t (y 2)) (y 3) := by
  obtain ⟨e0, e1, e2, e3⟩ := idx3 t
  have hy0 : (y 0).val < 1 := (y 0).isLt
  have hy1 : (y 1).val < 1 := (y 1).isLt
  refine funext fun d => Fin.ext ?_
  match d with
  | ⟨0, _⟩ => show win0_3.index t (0 : Fin 4) * 1 + 1 * (y 0).val = win0_4.index t (0 : Fin 4); omega
  | ⟨1, _⟩ => show win0_3.index t (1 : Fin 4) * 1 + 1 * (y 1).val = win0_4.index t (1 : Fin 4); omega
  | ⟨2, _⟩ => show win0_3.index t (2 : Fin 4) * 512 + 1 * (y 2).val = win0_4.index t (2 : Fin 4) * 512 + (y 2).val; omega
  | ⟨3, _⟩ => show win0_3.index t (3 : Fin 4) * 64 + 1 * (y 3).val = (y 3).val; omega

/-! ## What each point writes back -/

/-- Where block index `y` of the weights' tile reads the body's first result. -/
theorem ix4_0_eq (y : S1x1x512x2048.Idx) : ix4_0 y = ix2 (n0 := 512) (n1 := 2048) (y 2) (y 3) :=
  funext fun a => Fin.ext (by match a with | ⟨0, _⟩ => rfl | ⟨1, _⟩ => rfl)

/-- Where block index `y` of the output's tile reads the body's second result. -/
theorem ix3_0_eq (y : S1x1x512x64.Idx) : ix3_0 y = ix2 (n0 := 512) (n1 := 64) (y 2) (y 3) :=
  funext fun a => Fin.ext (by match a with | ⟨0, _⟩ => rfl | ⟨1, _⟩ => rfl)

/-- POINT `t` WRITES BACK its tile of the attention weights. -/
theorem flushed4_eq (c : Dev nD) (hQ : ∀ x, ∃ r : ℝ, Qarr m c x = (r : EReal)) (hK : ∀ x, ∃ r : ℝ, Karr m c x = (r : EReal))
    (t : Fin cfg0.N) :
    (dats m 0 c).flushed 4 t = ((cfg0.win 4).blk t).view.read (Elt Ideal) (attention (Qarr m c) (Karr m c)) := by
  rw [Value.flushed4]
  unfold out0_4
  simp only [View.ld_unit_zero (S := S1x1x512x64) hz, View.ld_unit_zero (S := S1x1x2048x64) hz]
  funext y
  show View.canon (Val := Elt Ideal) (e := .f32) [⟨r0_2, k0_pay3 (qblk m c t) (kblk m c t)⟩] y
    = attention (Qarr m c) (Karr m c) (((cfg0.win 4).blk t).view.emb y)
  rw [Value.canon4_eq, emb4]
  show k0_pay2 (qblk m c t) (kblk m c t) (ix4_0 y) = _
  rw [ix4_0_eq]
  exact attn_point (qblk m c t) (kblk m c t) (Qarr m c) (Karr m c) hQ hK (y 2) (ptB t) (ptH t) (ptRow t (y 2))
    (fun a => qblk_row m c t (y 2) a) (fun k a => kblk_row m c t k a) (y 3)

/-- POINT `t` WRITES BACK its tile of the output. -/
theorem flushed3_eq (c : Dev nD) (hQ : ∀ x, ∃ r : ℝ, Qarr m c x = (r : EReal)) (hK : ∀ x, ∃ r : ℝ, Karr m c x = (r : EReal))
    (t : Fin cfg0.N) :
    (dats m 0 c).flushed 3 t = ((cfg0.win 3).blk t).view.read (Elt Ideal) (output (Qarr m c) (Karr m c) (Varr m c)) := by
  rw [Value.flushed3]
  unfold out0_3
  simp only [View.ld_unit_zero (S := S1x1x512x64) hz, View.ld_unit_zero (S := S1x1x2048x64) hz]
  funext y
  show View.canon (Val := Elt Ideal) (e := .f32) [⟨r0_0, k0_pay1 (k0_pay4 (qblk m c t) (kblk m c t) (vblk m c t))⟩] y
    = output (Qarr m c) (Karr m c) (Varr m c) (((cfg0.win 3).blk t).view.emb y)
  rw [Value.canon3_eq, emb3]
  show k0_pay4 (qblk m c t) (kblk m c t) (vblk m c t) (ix3_0 y) = _
  rw [ix3_0_eq]
  exact out_point (qblk m c t) (kblk m c t) (vblk m c t) (Qarr m c) (Karr m c) (Varr m c) hQ hK (y 2) (ptB t) (ptH t) (ptRow t (y 2))
    (fun a => qblk_row m c t (y 2) a) (fun k a => kblk_row m c t k a) (fun k e => vblk_row m c t k e) (y 3)

/-! ## The tiles cover the arrays -/

/-- An index of the weights' array is in point `t`'s tile iff each coordinate is in the tile's range on its axis. -/
theorem mem_blk4 (t : Fin cfg0.N) (i : S4x12x2048x2048.Idx) :
    i ∈ ((cfg0.win 4).blk t).view.set ↔ ∀ a : Fin 4, win0_4.index t a * S1x1x512x2048.size a ≤ (i a).val ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

/-- The same for the output's array. -/
theorem mem_blk3 (t : Fin cfg0.N) (i : S4x12x2048x64.Idx) :
    i ∈ ((cfg0.win 3).blk t).view.set ↔ ∀ a : Fin 4, win0_3.index t a * S1x1x512x64.size a ≤ (i a).val ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Every index of the weights' array is in the tile of the point (batch, head, row / 512). -/
theorem cover4 (i : S4x12x2048x2048.Idx) :
    ∃ t : Fin cfg0.N, (cfg0.win 4).flush t = true ∧ i ∈ ((cfg0.win 4).blk t).view.set := by
  have hi0 : (i 0).val < 4 := (i 0).isLt
  have hi1 : (i 1).val < 12 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- Every index of the output's array is in the tile of the point (batch, head, row / 512). -/
theorem cover3 (i : S4x12x2048x64.Idx) :
    ∃ t : Fin cfg0.N, (cfg0.win 3).flush t = true ∧ i ∈ ((cfg0.win 3).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  obtain ⟨e0, e1, e2, e3⟩ := idx3 t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-! ## The arrays after the run -/

/-- The weights' array after the run is the attention weights of the argument arrays. -/
theorem final4 (c : Dev nD) (hQ : ∀ x, ∃ r : ℝ, Qarr m c x = (r : EReal)) (hK : ∀ x, ∃ r : ℝ, Karr m c x = (r : EReal)) :
    (dats m 0 c).arrAt 4 cfg0.N = attention (Qarr m c) (Karr m c) :=
  (dats m 0 c).arrAt_eq_of_cover 4 _ (fun t _ => flushed4_eq m c hQ hK t) cover4

/-- The output's array after the run is the output of the argument arrays. -/
theorem final3 (c : Dev nD) (hQ : ∀ x, ∃ r : ℝ, Qarr m c x = (r : EReal)) (hK : ∀ x, ∃ r : ℝ, Karr m c x = (r : EReal)) :
    (dats m 0 c).arrAt 3 cfg0.N = output (Qarr m c) (Karr m c) (Varr m c) :=
  (dats m 0 c).arrAt_eq_of_cover 3 _ (fun t _ => flushed3_eq m c hQ hK t) cover3

/-- THE RUN: where the queries and keys are real numbers, every weakly fair execution ends with the two result arrays
    at the output and the attention weights of the argument arrays, the arguments unchanged. -/
theorem run (hfin : ∀ c : Dev nD, (∀ x, ∃ r : ℝ, Qarr m c x = (r : EReal)) ∧ (∀ x, ∃ r : ℝ, Karr m c x = (r : EReal))) :
    θ_run defs (onTc (τ := τ) (main (F := Ideal))) ⟨m, fun _ => 0, ρ⟩ fun r => ∀ c : Dev nD,
      r.2.mem ((c : Thread nD τ).loc main_v0_0) = output (Qarr m c) (Karr m c) (Varr m c)
      ∧ r.2.mem ((c : Thread nD τ).loc main_v0_1) = attention (Qarr m c) (Karr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c (hfin c).1 (hfin c).2),
      (h c).2.1.trans (final4 m c (hfin c).1 (hfin c).2), (h c).2.2⟩)
    (Value.run_blocks m ρ)

end Cert.KernelIdeal.Arrays

end
-- ==== Proof.lean ====
/-
  Attention by a tiled kernel against attention by array operations, over the extended reals.

  Both programs take queries, keys and values [4, 12, 2048, 64] and return the attention weights
  softmax(Q Kᵀ / √64) [4, 12, 2048, 2048] and the output weights · V [4, 12, 2048, 64].

  The kernel visits (batch, head, query tile of 512 rows). It multiplies the query tile by 1/8 BEFORE the products
  with the head's keys, takes each row's maximum, exponentiates the differences, sums them, takes the RECIPROCAL of
  the sum and multiplies; then multiplies the weights with the head's values. The reference multiplies the products'
  sums by 1/√64 AFTER summing, and DIVIDES the exponentials by their sum.

  Three facts join them, each needing the queries and keys finite — which the precondition gives (`Finite`):
  √64 = 8, so the reference's scale is the kernel's constant 1/8; a real factor moves out of a sum of products of
  reals; and a row of real scores has a maximum below +∞, so every shifted exponential is positive, the row's sum is
  not zero, and multiplying by its reciprocal is dividing by it (`Softmax`, `Spec`). The values may be anything: both
  programs form the same sums of products with them.

  The kernel's run with its two result arrays named is the generated value leg; what a tile holds entry by entry is
  `KernelBlock` and `KernelPoint`, the tiles assembled into the arrays `KernelArrays`. The reference's run is the
  generated one, read operation by operation in `RefAttn`. The idealization rewrote nothing, so `preserves` is trivial.
-/
import proofs.«400047_j13881334301212_3_alg».proof.Defs
import proofs.«400047_j13881334301212_3_alg».proof.Proof.Gen.Kernel
import proofs.«400047_j13881334301212_3_alg».proof.Proof.Gen.Kernel.Skeleton
import proofs.«400047_j13881334301212_3_alg».proof.Proof.Gen.Kernel.Launch
import proofs.«400047_j13881334301212_3_alg».proof.Proof.Gen.Kernel.Points
import proofs.«400047_j13881334301212_3_alg».proof.Proof.Gen.Kernel.Frame
import proofs.«400047_j13881334301212_3_alg».proof.Proof.Gen.KernelIdeal
import proofs.«400047_j13881334301212_3_alg».proof.Proof.Gen.KernelIdeal.Skeleton
import proofs.«400047_j13881334301212_3_alg».proof.Proof.Gen.KernelIdeal.Launch
import proofs.«400047_j13881334301212_3_alg».proof.Proof.Gen.KernelIdeal.Points
import proofs.«400047_j13881334301212_3_alg».proof.Proof.Gen.KernelIdeal.Frame
import proofs.«400047_j13881334301212_3_alg».proof.Proof.Gen.ReferenceIdeal
import proofs.«400047_j13881334301212_3_alg».proof.Proof.Gen.Pre_finite_inputs
import proofs.«400047_j13881334301212_3_alg».proof.Proof.Gen.KernelIdeal.Value
import proofs.«400047_j13881334301212_3_alg».proof.Proof.Gen.ReferenceIdeal.Run
import proofs.«400047_j13881334301212_3_alg».proof.Proof.Gen.ReferenceIdeal.Read
import Idealize.ShloMosaic.Adequacy
import Idealize.ShloMosaic.Init
import proofs.«400047_j13881334301212_3_alg».proof.Proof.Finite
import proofs.«400047_j13881334301212_3_alg».proof.Proof.RefAttn
import proofs.«400047_j13881334301212_3_alg».proof.Proof.KernelArrays

noncomputable section

namespace Cert.Proof

open Idealize.ShloMosaic Idealize.SL.Sem Cert.Attn

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its generated run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments, both programs end with the output and the attention weights of the
    arguments: the kernel because its queries and keys are finite, the reference always. -/
theorem algebraic : Cert.algebraic_KernelIdeal_ReferenceIdeal := by
  intro m ρ m' ρ' hpre hagree
  have hfin : ∀ c : Dev Cert.KernelIdeal.nD,
      (∀ x, ∃ r : ℝ, Cert.KernelIdeal.Arrays.Qarr m c x = (r : EReal))
      ∧ (∀ x, ∃ r : ℝ, Cert.KernelIdeal.Arrays.Karr m c x = (r : EReal)) := fun c =>
    ⟨(Cert.Finite.real_entries _ _ _ (hpre c)).1, (Cert.Finite.real_entries _ _ _ (hpre c)).2.1⟩
  refine ⟨fun c => output (Cert.KernelIdeal.Arrays.Qarr m c) (Cert.KernelIdeal.Arrays.Karr m c) (Cert.KernelIdeal.Arrays.Varr m c),
    fun c => attention (Cert.KernelIdeal.Arrays.Qarr m c) (Cert.KernelIdeal.Arrays.Karr m c),
    Cert.KernelIdeal.Arrays.run m ρ hfin, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact Cert.ReferenceIdeal.RefAttn.output_eq _ _ _
  · rw [(hagree c).1, (hagree c).2.1]
    exact Cert.ReferenceIdeal.RefAttn.attention_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
